-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S2x512x256 : Shape := ⟨3, ![2, 512, 256]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S2x512x256 : S_.BroadcastsInDim S2x512x256 (![] : Fin 0 → Fin S2x512x256.rank)
  reducesTo_S2x512x256_S_d0_1_2 : S2x512x256.ReducesTo [0, 1, 2] S_

variable [Facts]

def fn {F : FTy → Type} [FloatOps F] (main_arg0 : FVec F S1024x512 .f32) (main_arg1 : FVec F S2x512x256 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S2x512x256 .f32 := Host.absf main_arg1
  let main_cst_0 : FVec F S_ .f32 := constant S_ .f32 0x7F800000#32
  let main_v5 : FVec F S2x512x256 .f32 := broadcastInDim S2x512x256 ![] bcast_S_S2x512x256 main_cst_0
  let main_v6 : IVec S2x512x256 1 := cmpf .olt main_v4 main_v5
  let main_c_1 : IVec S_ 1 := constantI S_ 1 1#1
  let main_v7 : IVec S_ 1 := (fun x v => Host.reduce IntOp.andi x v reducesTo_S2x512x256_S_d0_1_2 h_S_) main_v6 main_c_1
  let main_v8 : IVec S_ 1 := andi main_v3 main_v7
  main_v8
-- ==== Kernel.lean ====
abbrev S1024x512 : Shape := ⟨2, ![1024, 512]⟩
abbrev S2x512x256 : Shape := ⟨3, ![2, 512, 256]⟩
abbrev S1x512x256 : Shape := ⟨3, ![1, 512, 256]⟩
abbrev S512x256 : Shape := ⟨2, ![512, 256]⟩
abbrev S1024x256 : Shape := ⟨2, ![1024, 256]⟩
abbrev S64x128 : Shape := ⟨2, ![64, 128]⟩
abbrev S128x256 : Shape := ⟨2, ![128, 256]⟩
abbrev S64x256 : Shape := ⟨2, ![64, 256]⟩
abbrev S64x128x1 : Shape := ⟨3, ![64, 128, 1]⟩
abbrev S1x128x256 : Shape := ⟨3, ![1, 128, 256]⟩
abbrev S64x128x256 : Shape := ⟨3, ![64, 128, 256]⟩

abbrev nBuf : Space → Nat
  | .hbm => 7
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S2x512x256, .f32⟩
  | .hbm, ⟨2, _⟩ => ⟨S1x512x256, .f32⟩
  | .hbm, ⟨3, _⟩ => ⟨S512x256, .f32⟩
  | .hbm, ⟨4, _⟩ => ⟨S1x512x256, .f32⟩
  | .hbm, ⟨5, _⟩ => ⟨S512x256, .f32⟩
  | .hbm, ⟨6, _⟩ => ⟨S1024x256, .f32⟩
  | .local _ .vmem, ⟨0, _⟩ => ⟨S64x128, .f32⟩
  | .local _ .vmem, ⟨1, _⟩ => ⟨S64x128, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S64x256, .f32⟩
  | .local _ .vmem, ⟨7, _⟩ => ⟨S64x256, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x512x256_S1x512x256_0_0_0 : S2x512x256.Slices ![0, 0, 0] S1x512x256
  shapeCasts_S1x512x256_S512x256 : S1x512x256.ShapeCasts S512x256
  slices_S2x512x256_S1x512x256_1_0_0 : S2x512x256.Slices ![1, 0, 0] S1x512x256
  inb_S64x256_S64x256_0_0 : ∀ a, (![0, 0] : Fin 2 → Nat) a + S64x256.size a ≤ S64x256.size a
  h_S64x256 : 0 < S64x256.numel
  inb_S64x128_S64x128_0_0 : ∀ a, (![0, 0] : Fin 2 → Nat) a + S64x128.size a ≤ S64x128.size a
  h_S64x128 : 0 < S64x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S64x128_S64x128x1 : S64x128.ShapeCasts S64x128x1
  shapeCasts_S128x256_S1x128x256 : S128x256.ShapeCasts S1x128x256
  broadcasts_S64x128x1_S64x128x256 : S64x128x1.Broadcasts S64x128x256
  broadcasts_S1x128x256_S64x128x256 : S1x128x256.Broadcasts S64x128x256
  reduces_S64x128x256_S64x256 : S64x128x256.Reduces [1] S64x256
  shapeCasts_S64x256_S64x256 : S64x256.ShapeCasts S64x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S1024x512.size a
  hwx0_0 : ∀ i : grid0.Coords, EltTy.bits .f32 = 32 ∨ (Rect.block (s := S1024x512) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S512x256.size a
  hwx0_1 : ∀ i : grid0.Coords, EltTy.bits .f32 = 32 ∨ (Rect.block (s := S512x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S512x256.size a
  hwx0_2 : ∀ i : grid0.Coords, EltTy.bits .f32 = 32 ∨ (Rect.block (s := S512x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S1024x256.size a
  hwx0_3 : ∀ i : grid0.Coords, EltTy.bits .f32 = 32 ∨ (Rect.block (s := S1024x256) S64x256.size (cc0_transform_3 i) (hinb0_3 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S2x512x256 : Shape := ⟨3, ![2, 512, 256]⟩
abbrev S1024x1x512 : Shape := ⟨3, ![1024, 1, 512]⟩
abbrev S1024x2x512 : Shape := ⟨3, ![1024, 2, 512]⟩
abbrev S1024x2x512x1 : Shape := ⟨4, ![1024, 2, 512, 1]⟩
abbrev S1x2x512x256 : Shape := ⟨4, ![1, 2, 512, 256]⟩
abbrev S1024x2x512x256 : Shape := ⟨4, ![1024, 2, 512, 256]⟩
abbrev S_ : Shape := ⟨0, ![]⟩
abbrev S1024x256 : Shape := ⟨2, ![1024, 256]⟩

abbrev nBuf : Space → Nat
  | .hbm => 13
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S2x512x256, .f32⟩
  | .hbm, ⟨2, _⟩ => ⟨S1024x512, .f32⟩
  | .hbm, ⟨3, _⟩ => ⟨S1024x1x512, .f32⟩
  | .hbm, ⟨4, _⟩ => ⟨S1024x1x512, .f32⟩
  | .hbm, ⟨5, _⟩ => ⟨S1024x2x512, .f32⟩
  | .hbm, ⟨6, _⟩ => ⟨S1024x2x512x1, .f32⟩
  | .hbm, ⟨7, _⟩ => ⟨S1x2x512x256, .f32⟩
  | .hbm, ⟨8, _⟩ => ⟨S1024x2x512x256, .f32⟩
  | .hbm, ⟨9, _⟩ => ⟨S1024x2x512x256, .f32⟩
  | .hbm, ⟨10, _⟩ => ⟨S1024x2x512x256, .f32⟩
  | .hbm, ⟨11, _⟩ => ⟨S_, .f32⟩
  | .hbm, ⟨12, _⟩ => ⟨S1024x256, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  concatenates_S1024x1x512_S1024x1x512_S1024x2x512_d1 : Shape.Concatenates [S1024x1x512, S1024x1x512] S1024x2x512 1
  bcast_S1024x2x512_S1024x2x512x1_0_1_2 : S1024x2x512.BroadcastsInDim S1024x2x512x1 (![0, 1, 2] : Fin 3 → Fin S1024x2x512x1.rank)
  bcast_S2x512x256_S1x2x512x256_1_2_3 : S2x512x256.BroadcastsInDim S1x2x512x256 (![1, 2, 3] : Fin 3 → Fin S1x2x512x256.rank)
  bcast_S1024x2x512x1_S1024x2x512x256_0_1_2_3 : S1024x2x512x1.BroadcastsInDim S1024x2x512x256 (![0, 1, 2, 3] : Fin 4 → Fin S1024x2x512x256.rank)
  bcast_S1x2x512x256_S1024x2x512x256_0_1_2_3 : S1x2x512x256.BroadcastsInDim S1024x2x512x256 (![0, 1, 2, 3] : Fin 4 → Fin S1024x2x512x256.rank)
  reducesTo_S1024x2x512x256_S1024x256_d1_2 : S1024x2x512x256.ReducesTo [1, 2] S1024x256
  h_S_ : 0 < S_.numel

variable [Facts₀]

class Facts : Prop extends Facts₀ where

variable [Facts]
-- ==== Proof.TropicalSpec.lean ====
/-
  The tropical (max-plus) dense layer as ONE function of the two argument arrays, over the extended reals.

  For X : [1024, 512] and K : [2, 512, 256] the layer's value at (b, o) is the least upper bound, over the feature
  index d, of the two candidates  X[b, d] + K[0, d, o]  and  -X[b, d] + K[1, d, o].  A least upper bound in a complete
  lattice is determined by its upper bounds, so every statement below is of the form "t ≤ c iff every candidate ≤ c":
  the two programs are compared through that characterisation, and no law beyond the order's is needed (no
  finiteness: max is commutative, associative and idempotent at the infinities too, and -∞ is its identity).

  Also here: a maximum folded over a finite type from -∞ is bounded by c iff every term is; the feature axis
  [0, 512) is the four chunks [128 j, 128 j + 128); and 0 - x = -x on the extended reals.
-/
import Idealize.ShloMosaic.Lib.ValueIdx
import Idealize.ShloMosaic.PureOps.Ideal.Laws

noncomputable section

namespace Cert.Tropical

open Idealize.ShloMosaic Idealize.ShloMosaic.ValueIdx

/-- The array shapes of the layer. -/
abbrev SX : Shape := ⟨2, ![1024, 512]⟩
abbrev SK : Shape := ⟨3, ![2, 512, 256]⟩
abbrev SO : Shape := ⟨2, ![1024, 256]⟩

/-- The two candidates feature `d` contributes to output (b, o). -/
def cand (X : SX.Idx → EReal) (K : SK.Idx → EReal) (b : Fin 1024) (o : Fin 256) (d : Fin 512) : EReal :=
  max (X (ix2 b d) + K (ix3 (0 : Fin 2) d o)) (-X (ix2 b d) + K (ix3 (1 : Fin 2) d o))

/-- The layer: at (b, o) the least upper bound of the candidates over the 512 features. -/
def trop (X : SX.Idx → EReal) (K : SK.Idx → EReal) : SO.Idx → EReal :=
  fun i => ⨆ d : Fin 512, cand X K (i 0) (i 1) d

/-- The layer's value at (b, o) is below `c` iff both candidates of every feature are. -/
theorem trop_le_iff (X : SX.Idx → EReal) (K : SK.Idx → EReal) (b : Fin 1024) (o : Fin 256) (c : EReal) :
    trop X K (ix2 b o) ≤ c ↔ ∀ d : Fin 512, X (ix2 b d) + K (ix3 (0 : Fin 2) d o) ≤ c
      ∧ -X (ix2 b d) + K (ix3 (1 : Fin 2) d o) ≤ c := by
  show (⨆ d : Fin 512, cand X K b o d) ≤ c ↔ _
  rw [iSup_le_iff]
  exact forall_congr' fun d => max_le_iff

/-- A function into the extended reals is the layer once its upper bounds at every (b, o) are the layer's. -/
theorem eq_trop_of_le_iff (X : SX.Idx → EReal) (K : SK.Idx → EReal) (f : SO.Idx → EReal)
    (h : ∀ (b : Fin 1024) (o : Fin 256) (c : EReal), f (ix2 b o) ≤ c ↔
      ∀ d : Fin 512, X (ix2 b d) + K (ix3 (0 : Fin 2) d o) ≤ c ∧ -X (ix2 b d) + K (ix3 (1 : Fin 2) d o) ≤ c) :
    f = trop X K := by
  funext i
  obtain ⟨b, o, rfl⟩ : ∃ (b : Fin 1024) (o : Fin 256), i = ix2 b o := ⟨i 0, i 1, eq_ix2 i⟩
  exact eq_of_forall_ge_iff fun c => (h b o c).trans (trop_le_iff X K b o c).symm

/-- A maximum folded from -∞ over a whole finite type is below `c` iff every term is. -/
theorem fold_max_bot_le_iff {ι : Type*} [Fintype ι] (f : ι → EReal) (c : EReal) :
    (Finset.univ : Finset ι).fold max ⊥ f ≤ c ↔ ∀ k : ι, f k ≤ c := by
  rw [Finset.fold_max_le]
  exact ⟨fun h k => h.2 k (Finset.mem_univ k), fun h => ⟨bot_le, fun k _ => h k⟩⟩

/-- The f32 pattern of -∞ denotes the bottom of the extended reals. -/
theorem ofBits_neg_inf : Ideal.ofBits .f32 0xFF800000#32 = (⊥ : EReal) := by
  simp [Ideal.ofBits, Ideal.ieee]

/-- Zero minus x is the negative of x, at the infinities too. -/
theorem zero_sub_eq_neg (x : EReal) : (0 : EReal) - x = -x := by
  rw [sub_eq_add_neg, zero_add]

/-- Feature `128 j + k` of chunk `j`. -/
def feat (j : Fin 4) (k : Fin 128) : Fin 512 := ⟨128 * j.val + k.val, by omega⟩

/-- A property of all 512 features is one of every place of every chunk. -/
theorem forall_feat_iff (P : Fin 512 → Prop) : (∀ d : Fin 512, P d) ↔ ∀ (j : Fin 4) (k : Fin 128), P (feat j k) := by
  constructor
  · intro h j k; exact h _
  · intro h d
    have hd := d.isLt
    have e : d = feat ⟨d.val / 128, by omega⟩ ⟨d.val % 128, Nat.mod_lt _ (by decide)⟩ := by
      apply Fin.ext; show d.val = 128 * (d.val / 128) + d.val % 128; omega
    rw [e]; exact h _ _

end Cert.Tropical

end
-- ==== Proof.ChunkStep.lean ====
/-
  One grid point's contribution, read at an index.

  At a grid point the body holds a [64, 128] block x of X, [128, 256] blocks w0 and w1 of the two weight planes and
  the [64, 256] accumulator acc, and stores, at (r, o),

      max acc[r, o] (max (max_k (x[r, k] + w0[k, o])) (max_k ((0 - x[r, k]) + w1[k, o])))

  with both inner maxima folded from -∞ over the 128 places k of the chunk. Stated by upper bounds: the stored value
  is below c iff the accumulator's entry is and, at every place k of the chunk, both candidates are.
-/
import proofs.«162679_j41592463294676_1_alg».proof.Proof.Gen.KernelIdeal.Skeleton
import proofs.«162679_j41592463294676_1_alg».proof.Proof.TropicalSpec
import Idealize.ShloMosaic.Lib.Pipeline.Value
import Idealize.ShloMosaic.Lib.ValueLayout

noncomputable section

namespace Cert.KernelTropical

open Cert.KernelIdeal Cert.KernelIdeal.Gen Idealize.ShloMosaic Idealize.ShloMosaic.ValueIdx Cert.Tropical

/-- A [64, 128] block with a trailing unit axis added, read at (r, k, 0): the block at (r, k). -/
theorem addTrailingUnit_apply (x : S64x128.Idx → EReal) (h : S64x128.ShapeCasts S64x128x1)
    (r : Fin 64) (k : Fin 128) (u : Fin 1) :
    shapeCast S64x128x1 x h (ix3 r k u) = x (ix2 r k) :=
  shapeCast_apply x h _ _ (by
    have hu : u.val = 0 := by omega
    rw [Shape.rowMajor_val_three, Shape.rowMajor_val_two]
    show r.val * 128 + k.val = (r.val * 128 + k.val) * 1 + u.val
    rw [hu, Nat.mul_one, Nat.add_zero])

/-- The row block spread along the output axis: [64, 128, 1] to [64, 128, 256] at (r, k, o) is the operand at (r, k, 0). -/
theorem spreadRows_apply (y : S64x128x1.Idx → EReal) (h : S64x128x1.Broadcasts S64x128x256)
    (r : Fin 64) (k : Fin 128) (o : Fin 256) :
    broadcastTo S64x128x256 y h (ix3 r k o) = y (ix3 r k (0 : Fin 1)) :=
  broadcastTo_apply y h _ _ (fun a => match a with
    | ⟨0, _⟩ => by show r.val = if (64 : Nat) = 1 then 0 else r.val; rw [if_neg (by decide)]
    | ⟨1, _⟩ => by show k.val = if (128 : Nat) = 1 then 0 else k.val; rw [if_neg (by decide)]
    | ⟨2, _⟩ => by show 0 = if (1 : Nat) = 1 then 0 else o.val; rw [if_pos rfl])

/-- The weight block spread along the row axis: [1, 128, 256] to [64, 128, 256] at (r, k, o) is the operand at (0, k, o). -/
theorem spreadWeights_apply (y : S1x128x256.Idx → EReal) (h : S1x128x256.Broadcasts S64x128x256)
    (r : Fin 64) (k : Fin 128) (o : Fin 256) :
    broadcastTo S64x128x256 y h (ix3 r k o) = y (ix3 (0 : Fin 1) k o) :=
  broadcastTo_apply y h _ _ (fun a => match a with
    | ⟨0, _⟩ => by show 0 = if (1 : Nat) = 1 then 0 else r.val; rw [if_pos rfl]
    | ⟨1, _⟩ => by show k.val = if (128 : Nat) = 1 then 0 else k.val; rw [if_neg (by decide)]
    | ⟨2, _⟩ => by show o.val = if (256 : Nat) = 1 then 0 else o.val; rw [if_neg (by decide)])

/-- The maximum over the chunk axis of a [64, 128, 256] array, folded from -∞, is below `c` at (r, o) iff every
    entry (r, k, o) is. -/
theorem chunkMax_le_iff (v : FVec Ideal S64x128x256 .f32) (h : S64x128x256.Reduces [1] S64x256)
    (hφ : FKind.Formats .f32) (hacc : (0xFF800000#32 : BitVec 32) = FKind.maximumf.neutral .f32 hφ)
    (r : Fin 64) (o : Fin 256) (c : EReal) :
    multiReduction .maximumf [1] S64x256 v 0xFF800000#32 h hφ hacc (ix2 r o) ≤ c ↔ ∀ k : Fin 128, v (ix3 r k o) ≤ c := by
  have e : ∀ k : Fin 128, h.lift (ix2 r o) k = ix3 r k o := fun k => by
    funext a; apply Fin.ext
    match a with
    | ⟨0, _⟩ => rfl
    | ⟨1, _⟩ => rfl
    | ⟨2, _⟩ => rfl
  have hb : FloatOps.ofBits (F := Ideal) .f32 0xFF800000#32 = (⊥ : EReal) := ofBits_neg_inf
  rw [Ideal.multiReduction_maximumf_single, hb]
  refine (fold_max_bot_le_iff (ι := Fin (S64x128x256.size 1)) (v ∘ h.lift (ix2 r o)) c).trans ?_
  show (∀ k : Fin 128, v (h.lift (ix2 r o) k) ≤ c) ↔ _
  exact forall_congr' fun k => by rw [e k]

/-- THE STEP at an index, by upper bounds. -/
theorem step_le_iff (x : Vec Ideal S64x128 .f32) (w0 w1 : Vec Ideal S128x256 .f32) (acc : Vec Ideal S64x256 .f32)
    (r : Fin 64) (o : Fin 256) (c : EReal) :
    k0_pay2 (F := Ideal) x w0 w1 acc (ix2 r o) ≤ c ↔
      acc (ix2 r o) ≤ c ∧ ∀ k : Fin 128, x (ix2 r k) + w0 (ix2 k o) ≤ c ∧ -x (ix2 r k) + w1 (ix2 k o) ≤ c := by
  unfold k0_pay2
  dsimp only
  rw [shapeCast_self acc, shapeCast_self w0, shapeCast_self w1]
  rw [maximumf_apply, maximumf_apply, max_le_iff, max_le_iff]
  refine and_congr_right fun _ => ?_
  refine (and_congr (chunkMax_le_iff _ _ _ _ r o c) (chunkMax_le_iff _ _ _ _ r o c)).trans ?_
  rw [← forall_and]
  refine forall_congr' fun k => ?_
  rw [addf_apply, addf_apply]
  rw [spreadRows_apply, spreadWeights_apply, spreadRows_apply, spreadWeights_apply,
    addTrailingUnit_apply, addTrailingUnit_apply, shapeCast_ab_1ab_apply, shapeCast_ab_1ab_apply]
  have hz : FloatOps.ofBits (F := Ideal) .f32 0x00000000#32 = (0 : EReal) := Ideal.ofBits_zero_f32
  rw [subf_apply, broadcast_apply, hz, zero_sub_eq_neg]

/-- THE RESET's accumulator, -∞ everywhere, bounds nothing. -/
theorem reset_acc_le (i : S64x256.Idx) (c : EReal) : k0_pay1 (F := Ideal) i ≤ c := by
  show Ideal.ofBits .f32 0xFF800000#32 ≤ c
  rw [ofBits_neg_inf]; exact bot_le

end Cert.KernelTropical

end
-- ==== Proof.KernelTropical.lean ====
/-
  The kernel's output array as the tropical layer.

  The grid is 16 row blocks by 4 feature chunks, visited row-major: point n works on rows [64 (n / 4), 64 (n / 4) + 64)
  of X and on features [128 (n % 4), 128 (n % 4) + 128) of both weight planes. The weight planes are the two slices
  K[0] and K[1] of the second argument, reshaped to [512, 256] before the region. The output block of row block q is
  reset at point 4 q and updated at 4 q + 1, 4 q + 2, 4 q + 3; what it holds after the last of them is bounded by c iff
  every candidate of every place of each of the four chunks is — that is, of every feature: the layer's own
  characterisation. So the array the run leaves is the layer of the two arguments.
-/
import proofs.«162679_j41592463294676_1_alg».proof.Proof.Gen.KernelIdeal.Value
import proofs.«162679_j41592463294676_1_alg».proof.Proof.ChunkStep
import Idealize.ShloMosaic.Lib.StableHlo.Run
import Idealize.ShloMosaic.Lib.Pipeline.Value
import Idealize.ShloMosaic.Lib.ValueLayout

noncomputable section

namespace Cert.KernelTropical

open Cert.KernelIdeal Cert.KernelIdeal.Gen Idealize.ShloMosaic Idealize.ShloMosaic.TcCoe Idealize.SL.Sem
open Idealize.ShloMosaic.ValueIdx Idealize.ShloMosaic.StableHlo Cert.Tropical

variable (m : (ℓ : Loc nD τ sig) → Buf (Elt Ideal) ℓ)

/-- The two argument arrays, as arrays of extended reals. -/
abbrev argX (c : Dev nD) : S1024x512.Idx → EReal := m ((c : Thread nD τ).loc main_arg0)
abbrev argK (c : Dev nD) : S2x512x256.Idx → EReal := m ((c : Thread nD τ).loc main_arg1)

/-! ## The arrays the region finds -/

/-- The first weight plane as the region finds it: K[0, d, o] at (d, o). -/
theorem plane0_apply (c : Dev nD) (d : Fin 512) (o : Fin 256) :
    (V m c main_v1 : S512x256.Idx → EReal) (ix2 d o) = argK m c (ix3 (0 : Fin 2) d o) := by
  have e : (V m c main_v1 : S512x256.Idx → EReal) = fun i => shapeCast S512x256
      (extractStridedSlice S1x512x256 ![0, 0, 0] (m ((c : Thread nD τ).loc main_arg1)) slices_S2x512x256_S1x512x256_0_0_0)
      shapeCasts_S1x512x256_S512x256 i := by
    dsimp only [V, hostOps0]; after_results; rfl
  rw [e]
  show shapeCast S512x256 _ _ (ix2 d o) = _
  rw [shapeCast_1ab_ab_apply]
  exact extractStridedSlice_apply _ _ _ _ _ (fun a => match a with
    | ⟨0, _⟩ => rfl
    | ⟨1, _⟩ => by show d.val = 0 + d.val; rw [Nat.zero_add]
    | ⟨2, _⟩ => by show o.val = 0 + o.val; rw [Nat.zero_add])

/-- The second weight plane as the region finds it: K[1, d, o] at (d, o). -/
theorem plane1_apply (c : Dev nD) (d : Fin 512) (o : Fin 256) :
    (V m c main_v3 : S512x256.Idx → EReal) (ix2 d o) = argK m c (ix3 (1 : Fin 2) d o) := by
  have e : (V m c main_v3 : S512x256.Idx → EReal) = fun i => shapeCast S512x256
      (extractStridedSlice S1x512x256 ![1, 0, 0] (m ((c : Thread nD τ).loc main_arg1)) slices_S2x512x256_S1x512x256_1_0_0)
      shapeCasts_S1x512x256_S512x256 i := by
    dsimp only [V, hostOps0]; after_results; rfl
  rw [e]
  show shapeCast S512x256 _ _ (ix2 d o) = _
  rw [shapeCast_1ab_ab_apply]
  exact extractStridedSlice_apply _ _ _ _ _ (fun a => match a with
    | ⟨0, _⟩ => rfl
    | ⟨1, _⟩ => by show d.val = 0 + d.val; rw [Nat.zero_add]
    | ⟨2, _⟩ => by show o.val = 0 + o.val; rw [Nat.zero_add])

/-! ## The blocks of a grid point -/

/-- The printed index maps over the grid: point n is row block n / 4 and feature chunk n % 4. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val % 4 ∧ win0_2.index t (1 : Fin 2) = 0 :=
  (by decide +kernel : ∀ t : Fin grid0.N, _)

/-- The X block of point n at (r, k): row 64 (n / 4) + r, place k of chunk n % 4. -/
theorem xblk_apply (c : Dev nD) (n : ℕ) (h : n < cfg0.N) (r : Fin 64) (k : Fin 128) (b : Fin 1024) (j : Fin 4)
    (hb : b.val = 64 * (n / 4) + r.val) (hj : j.val = n % 4) :
    (iblk m c 0 ⟨n, h⟩ : S64x128.Idx → EReal) (ix2 r k) = argX m c (ix2 b (feat j k)) := by
  obtain ⟨e0, e1, -⟩ := idx_facts ⟨n, h⟩
  have e0' : win0_0.index ⟨n, h⟩ (0 : Fin 2) = n / 4 := e0
  have e1' : win0_0.index ⟨n, h⟩ (1 : Fin 2) = n % 4 := e1
  show V m c main_arg0 (((cfg0.win 0).blk ⟨n, h⟩).view.emb (ix2 r k)) = _
  rw [V_main_arg0]
  refine congrArg _ (funext fun a => Fin.ext ?_)
  match a with
  | ⟨0, _⟩ => show win0_0.index ⟨n, h⟩ (0 : Fin 2) * 64 + 1 * r.val = b.val; rw [e0', hb]; omega
  | ⟨1, _⟩ => show win0_0.index ⟨n, h⟩ (1 : Fin 2) * 128 + 1 * k.val = 128 * j.val + k.val; rw [e1', hj]; omega

/-- The first weight block of point n at (k, o): place k of chunk n % 4 of K[0]. -/
theorem w0blk_apply (c : Dev nD) (n : ℕ) (h : n < cfg0.N) (k : Fin 128) (o : Fin 256) (j : Fin 4) (hj : j.val = n % 4) :
    (iblk m c 1 ⟨n, h⟩ : S128x256.Idx → EReal) (ix2 k o)
      = argK m c (ix3 (0 : Fin 2) (feat j k) o) := by
  obtain ⟨-, -, e0, e1, -⟩ := idx_facts ⟨n, h⟩
  have e0' : win0_1.index ⟨n, h⟩ (0 : Fin 2) = n % 4 := e0
  show (V m c main_v1 : S512x256.Idx → EReal) (((cfg0.win 1).blk ⟨n, h⟩).view.emb (ix2 k o)) = _
  rw [← plane0_apply m c (feat j k) o]
  refine congrArg _ (funext fun a => Fin.ext ?_)
  match a with
  | ⟨0, _⟩ => show win0_1.index ⟨n, h⟩ (0 : Fin 2) * 128 + 1 * k.val = 128 * j.val + k.val; rw [e0', hj]; omega
  | ⟨1, _⟩ => show win0_1.index ⟨n, h⟩ (1 : Fin 2) * 256 + 1 * o.val = o.val; rw [e1]; omega

/-- The second weight block of point n at (k, o): place k of chunk n % 4 of K[1]. -/
theorem w1blk_apply (c : Dev nD) (n : ℕ) (h : n < cfg0.N) (k : Fin 128) (o : Fin 256) (j : Fin 4) (hj : j.val = n % 4) :
    (iblk m c 2 ⟨n, h⟩ : S128x256.Idx → EReal) (ix2 k o)
      = argK m c (ix3 (1 : Fin 2) (feat j k) o) := by
  obtain ⟨-, -, -, -, e0, e1⟩ := idx_facts ⟨n, h⟩
  have e0' : win0_2.index ⟨n, h⟩ (0 : Fin 2) = n % 4 := e0
  show (V m c main_v3 : S512x256.Idx → EReal) (((cfg0.win 2).blk ⟨n, h⟩).view.emb (ix2 k o)) = _
  rw [← plane1_apply m c (feat j k) o]
  refine congrArg _ (funext fun a => Fin.ext ?_)
  match a with
  | ⟨0, _⟩ => show win0_2.index ⟨n, h⟩ (0 : Fin 2) * 128 + 1 * k.val = 128 * j.val + k.val; rw [e0', hj]; omega
  | ⟨1, _⟩ => show win0_2.index ⟨n, h⟩ (1 : Fin 2) * 256 + 1 * o.val = o.val; rw [e1]; omega

/-! ## One point, then the run of four -/

/-- The candidates of chunk `j` for output (b, o) are all below `c'`. -/
def chunkBelow (c : Dev nD) (b : Fin 1024) (o : Fin 256) (c' : EReal) (j : Fin 4) : Prop :=
  ∀ k : Fin 128, argX m c (ix2 b (feat j k))
        + argK m c (ix3 (0 : Fin 2) (feat j k) o) ≤ c'
    ∧ -argX m c (ix2 b (feat j k))
        + argK m c (ix3 (1 : Fin 2) (feat j k) o) ≤ c'

/-- What a later point of a run leaves at (r, o) is below `c'` iff what the point before left is and the point's
    chunk is. -/
theorem point_le_iff (c : Dev nD) (n : ℕ) (h : n < cfg0.N) (acc : Vec Ideal S64x256 .f32) (r : Fin 64) (o : Fin 256)
    (b : Fin 1024) (j : Fin 4) (hb : b.val = 64 * (n / 4) + r.val) (hj : j.val = n % 4) (c' : EReal) :
    (Value.step3 m c n h acc : S64x256.Idx → EReal) (ix2 r o) ≤ c' ↔ acc (ix2 r o) ≤ c' ∧ chunkBelow m c b o c' j := by
  unfold Value.step3 chunkBelow
  refine (step_le_iff (iblk m c 0 ⟨n, h⟩) (iblk m c 1 ⟨n, h⟩) (iblk m c 2 ⟨n, h⟩) acc r o c').trans ?_
  refine and_congr_right fun _ => forall_congr' fun k => ?_
  rw [xblk_apply m c n h r k b j hb hj, w0blk_apply m c n h k o j hj, w1blk_apply m c n h k o j hj]

/-- What the first point of a run leaves at (r, o) is below `c'` iff the point's chunk is. -/
theorem first_le_iff (c : Dev nD) (n : ℕ) (h : n < cfg0.N) (r : Fin 64) (o : Fin 256)
    (b : Fin 1024) (j : Fin 4) (hb : b.val = 64 * (n / 4) + r.val) (hj : j.val = n % 4) (c' : EReal) :
    (Value.reset3 m c n h : S64x256.Idx → EReal) (ix2 r o) ≤ c' ↔ chunkBelow m c b o c' j :=
  (point_le_iff m c n h (k0_pay1 (F := Ideal)) r o b j hb hj c').trans (and_iff_right (reset_acc_le _ _))

/-- What the run of row block `q` leaves at (r, o) after its fourth point is below `c'` iff all four chunks are. -/
theorem run_le_iff (c : Dev nD) (q : ℕ) (hq : 4 * q + 3 < cfg0.N) (r : Fin 64) (o : Fin 256) (b : Fin 1024)
    (hb : b.val = 64 * q + r.val) (c' : EReal) :
    (Pipeline.accAt (Value.reset3 m c) (Value.step3 m c) (4 * q) 3 hq : S64x256.Idx → EReal) (ix2 r o) ≤ c'
      ↔ ∀ j : Fin 4, chunkBelow m c b o c' j := by
  rw [Pipeline.accAt_succ,
    point_le_iff m c (4 * q + (2 + 1)) _ _ r o b (3 : Fin 4) (by omega) (show (3 : ℕ) = (4 * q + (2 + 1)) % 4 by omega) c',
    Pipeline.accAt_succ,
    point_le_iff m c (4 * q + (1 + 1)) _ _ r o b (2 : Fin 4) (by omega) (show (2 : ℕ) = (4 * q + (1 + 1)) % 4 by omega) c',
    Pipeline.accAt_succ,
    point_le_iff m c (4 * q + (0 + 1)) _ _ r o b (1 : Fin 4) (by omega) (show (1 : ℕ) = (4 * q + (0 + 1)) % 4 by omega) c',
    Pipeline.accAt_zero,
    first_le_iff m c (4 * q) _ r o b (0 : Fin 4) (by omega) (show (0 : ℕ) = (4 * q) % 4 by omega) c']
  constructor
  · rintro ⟨⟨⟨h0, h1⟩, h2⟩, h3⟩ j
    match j with
    | ⟨0, _⟩ => exact h0
    | ⟨1, _⟩ => exact h1
    | ⟨2, _⟩ => exact h2
    | ⟨3, _⟩ => exact h3
  · intro H; exact ⟨⟨⟨H 0, H 1⟩, H 2⟩, H 3⟩

/-! ## The array after the run -/

/-- The array the run leaves, as an array of extended reals. -/
abbrev outG (c : Dev nD) : S1024x256.Idx → EReal := Value.G3 m c

/-- THE KERNEL'S RESULT at (b, o), by upper bounds. -/
theorem kernel_le_iff (c : Dev nD) (b : Fin 1024) (o : Fin 256) (c' : EReal) :
    outG m c (ix2 b o) ≤ c' ↔
      ∀ d : Fin 512, argX m c (ix2 b d)
          + argK m c (ix3 (0 : Fin 2) d o) ≤ c'
        ∧ -argX m c (ix2 b d)
          + argK m c (ix3 (1 : Fin 2) d o) ≤ c' := by
  have hb := b.isLt
  have ho := o.isLt
  have hq : Value.run3Of (ix2 b o) = b.val / 64 := by
    show 1 * (b.val / 64 - 0) + 1 * (o.val / 256 - 0) = b.val / 64
    have : o.val / 256 = 0 := Nat.div_eq_of_lt ho
    omega
  have hN : 4 * Value.run3Of (ix2 b o) + 3 < cfg0.N := by
    rw [hq, show cfg0.N = 64 from N_0]; omega
  have hl : Value.loc3Of (ix2 b o) = ix2 (⟨b.val % 64, Nat.mod_lt _ (by decide)⟩ : Fin 64) o := by
    funext a
    match a with
    | ⟨0, _⟩ => rfl
    | ⟨1, _⟩ => exact Fin.ext (Nat.mod_eq_of_lt ho)
  unfold outG Value.G3
  rw [dif_pos hN, hl]
  refine (run_le_iff m c (Value.run3Of (ix2 b o)) hN ⟨b.val % 64, Nat.mod_lt _ (by decide)⟩ o b
    (by rw [hq]; show b.val = 64 * (b.val / 64) + b.val % 64; omega) c').trans ?_
  exact (forall_feat_iff (fun d => argX m c (ix2 b d)
          + argK m c (ix3 (0 : Fin 2) d o) ≤ c'
        ∧ -argX m c (ix2 b d)
          + argK m c (ix3 (1 : Fin 2) d o) ≤ c')).symm

/-- THE KERNEL'S RESULT is the tropical layer of its two arguments. -/
theorem kernel_eq_trop (c : Dev nD) :
    outG m c = trop (argX m c) (argK m c) :=
  eq_trop_of_le_iff (argX m c) (argK m c) _ (kernel_le_iff m c)

end Cert.KernelTropical

end
-- ==== Proof.RefTropical.lean ====
/-
  The reference, stage by stage at an index, and its result as the tropical layer.

  The reference stacks X and -X along a new sign axis ([1024, 2, 512]: sign 0 is X, sign 1 is -X), adds the weights
  K[s, d, o] to the stacked entry (b, s, d) for every output o, and takes the maximum from -∞ over the sign and feature
  axes. A maximum over a set of indices is below c iff every entry is, and the indices that drop to (b, o) are exactly
  the (b, s, d, o): so the result at (b, o) is below c iff, for every feature d, X[b, d] + K[0, d, o] and
  -X[b, d] + K[1, d, o] both are — the layer's own characterisation.
-/
import proofs.«162679_j41592463294676_1_alg».proof.Proof.Gen.ReferenceIdeal.Read
import proofs.«162679_j41592463294676_1_alg».proof.Proof.TropicalSpec
import Idealize.ShloMosaic.Lib.Pipeline.Value
import Idealize.ShloMosaic.PureOps.Reduce
import Idealize.ShloMosaic.PureOps.Ideal.Laws

noncomputable section

namespace Cert.RefTropical

open Cert.ReferenceIdeal Cert.ReferenceIdeal.Gen Cert.ReferenceIdeal.Read Idealize.ShloMosaic
open Idealize.ShloMosaic.ValueIdx Cert.Tropical

/-- The stacked operand at sign 0 is X. -/
theorem stacked_pos (X : S1024x512.Idx → EReal) (b : Fin 1024) (d : Fin 512) :
    val_main_v3 (F := Ideal) X (ix3 b (0 : Fin 2) d) = X (ix2 b d) := by
  unfold val_main_v3
  rw [concatenate_apply_piece (t := S1024x2x512) 1 [⟨S1024x1x512, val_main_v1 (F := Ideal) X⟩, ⟨S1024x1x512, val_main_v2 (F := Ideal) X⟩] concatenates_S1024x1x512_S1024x1x512_S1024x2x512_d1
    (ix3 b (0 : Fin 2) d) 0 (show 0 < 2 by omega) S1024x1x512 (val_main_v1 (F := Ideal) X) rfl rfl 0 rfl (ix3 b (0 : Fin 1) d)
    (fun a ha => match a, ha with
      | ⟨0, _⟩, _ => rfl
      | ⟨1, _⟩, ha => (ha (Fin.ext rfl)).elim
      | ⟨2, _⟩, _ => rfl)
    rfl]
  rw [val_main_v1_apply]
  exact congrArg X (funext fun a => match a with | ⟨0, _⟩ => rfl | ⟨1, _⟩ => rfl)

/-- The stacked operand at sign 1 is -X. -/
theorem stacked_neg (X : S1024x512.Idx → EReal) (b : Fin 1024) (d : Fin 512) :
    val_main_v3 (F := Ideal) X (ix3 b (1 : Fin 2) d) = -X (ix2 b d) := by
  unfold val_main_v3
  rw [concatenate_apply_piece (t := S1024x2x512) 1 [⟨S1024x1x512, val_main_v1 (F := Ideal) X⟩, ⟨S1024x1x512, val_main_v2 (F := Ideal) X⟩] concatenates_S1024x1x512_S1024x1x512_S1024x2x512_d1
    (ix3 b (1 : Fin 2) d) 1 (show 1 < 2 by omega) S1024x1x512 (val_main_v2 (F := Ideal) X) rfl rfl 1 rfl (ix3 b (0 : Fin 1) d)
    (fun a ha => match a, ha with
      | ⟨0, _⟩, _ => rfl
      | ⟨1, _⟩, ha => (ha (Fin.ext rfl)).elim
      | ⟨2, _⟩, _ => rfl)
    rfl]
  rw [val_main_v2_apply, val_main_v0_apply]
  show -X _ = -X _
  exact congrArg (fun z => -X z) (funext fun a => match a with | ⟨0, _⟩ => rfl | ⟨1, _⟩ => rfl)

/-- The summand at (b, s, d, o): the stacked entry (b, s, d) plus the weight (s, d, o). -/
theorem summand_apply (X : S1024x512.Idx → EReal) (K : S2x512x256.Idx → EReal)
    (b : Fin 1024) (s : Fin 2) (d : Fin 512) (o : Fin 256) :
    val_main_v8 (F := Ideal) X K (ix4 b s d o) = val_main_v3 (F := Ideal) X (ix3 b s d) + K (ix3 s d o) := by
  have e1 : idx_main_v4 (idx_main_v6 (ix4 b s d o)) = ix3 b s d :=
    funext fun a => match a with | ⟨0, _⟩ => rfl | ⟨1, _⟩ => rfl | ⟨2, _⟩ => rfl
  have e2 : idx_main_v5 (idx_main_v7 (ix4 b s d o)) = ix3 s d o :=
    funext fun a => match a with | ⟨0, _⟩ => rfl | ⟨1, _⟩ => rfl | ⟨2, _⟩ => rfl
  rw [val_main_v8_apply, val_main_v6_apply, val_main_v4_apply, val_main_v7_apply, val_main_v5_apply, e1, e2]
  rfl

/-- The indices that drop to (b, o) when the sign and feature axes are removed are the (b, s, d, o). -/
theorem drop_ix4 (b : Fin 1024) (s : Fin 2) (d : Fin 512) (o : Fin 256) :
    reducesTo_S1024x2x512x256_S1024x256_d1_2.drop (ix4 b s d o) = ix2 b o := by
  funext a; apply Fin.ext
  match a with
  | ⟨0, _⟩ => exact reducesTo_S1024x2x512x256_S1024x256_d1_2.drop_apply_val_of_eq _ 0 0
  | ⟨1, _⟩ => exact reducesTo_S1024x2x512x256_S1024x256_d1_2.drop_apply_val_of_eq _ 1 3

/-- THE REFERENCE'S RESULT at (b, o), by upper bounds. -/
theorem ref_le_iff (X : S1024x512.Idx → EReal) (K : S2x512x256.Idx → EReal) (b : Fin 1024) (o : Fin 256) (c : EReal) :
    val_main_v9 (F := Ideal) X K (ix2 b o) ≤ c ↔ ∀ d : Fin 512, X (ix2 b d) + K (ix3 (0 : Fin 2) d o) ≤ c
      ∧ -X (ix2 b d) + K (ix3 (1 : Fin 2) d o) ≤ c := by
  unfold val_main_v9
  rw [Host.reduce_eq_fold]
  have hfold : ∀ (S : Finset S1024x2x512x256.Idx) (b0 : EReal) (f : S1024x2x512x256.Idx → EReal),
      S.fold (FloatOps.maximumf (F := Ideal) (φ := .f32)) b0 f = S.fold max b0 f := fun _ _ _ => rfl
  rw [hfold, Finset.fold_max_le]
  constructor
  · rintro ⟨-, H⟩ d
    have H0 := H (ix4 b (0 : Fin 2) d o) (Finset.mem_filter.2 ⟨Finset.mem_univ _, drop_ix4 b 0 d o⟩)
    have H1 := H (ix4 b (1 : Fin 2) d o) (Finset.mem_filter.2 ⟨Finset.mem_univ _, drop_ix4 b 1 d o⟩)
    rw [summand_apply, stacked_pos] at H0
    rw [summand_apply, stacked_neg] at H1
    exact ⟨H0, H1⟩
  · intro H
    refine ⟨?_, fun i' hi' => ?_⟩
    · show Ideal.ofBits .f32 0xFF800000#32 ≤ c
      rw [ofBits_neg_inf]; exact bot_le
    · have hd := (Finset.mem_filter.1 hi').2
      obtain ⟨b', s, d, o', rfl⟩ : ∃ (b' : Fin 1024) (s : Fin 2) (d : Fin 512) (o' : Fin 256), i' = ix4 b' s d o' :=
        ⟨i' 0, i' 1, i' 2, i' 3, eq_ix4 i'⟩
      rw [drop_ix4] at hd
      obtain rfl : b' = b := congrFun hd 0
      obtain rfl : o' = o := congrFun hd 1
      have Hd := H d
      rw [summand_apply]
      rcases (by omega : s.val = 0 ∨ s.val = 1) with h0 | h1
      · obtain rfl : s = 0 := Fin.ext h0
        rw [stacked_pos]; exact Hd.1
      · obtain rfl : s = 1 := Fin.ext h1
        rw [stacked_neg]; exact Hd.2

/-- THE REFERENCE'S RESULT is the tropical layer of its two arguments. -/
theorem ref_eq_trop (X : S1024x512.Idx → EReal) (K : S2x512x256.Idx → EReal) :
    val_main_v9 (F := Ideal) X K = trop X K :=
  eq_trop_of_le_iff X K _ (ref_le_iff X K)

end Cert.RefTropical

end
-- ==== Proof.lean ====
/-
  The certificate of the tropical (max-plus) dense layer.

  Kernel: a 16 x 4 grid; each point adds a [64, 128] block of X (and of 0 - X) to the matching [128, 256] blocks of the
  two weight planes, takes the maxima over the 128 places of the chunk, and folds them into the output block by a
  running maximum that starts at -∞ on the first chunk of each row block. Reference: X and -X stacked, the weights
  added, one maximum from -∞ over sign and feature.

  Over the extended reals both results are, at (b, o), the least upper bound over the 512 features d of
  X[b, d] + K[0, d, o] and -X[b, d] + K[1, d, o] (Proof/TropicalSpec.lean): a maximum is determined by its upper
  bounds, the grouping into four chunks of 128 changes no upper bound, -∞ is the identity of max, and 0 - x = -x.
  Proof/ChunkStep.lean reads one grid point's update at an index, Proof/KernelTropical.lean the blocks and the run of
  four points, Proof/RefTropical.lean the reference's stages. The frames are the generated runs; the ideal pass
  rewrote nothing, so the idealization claim is trivial. The precondition is not used: no law here needs finiteness.
-/
import proofs.«162679_j41592463294676_1_alg».proof.Defs
import proofs.«162679_j41592463294676_1_alg».proof.Proof.Gen.Kernel.Frame
import proofs.«162679_j41592463294676_1_alg».proof.Proof.Gen.KernelIdeal.Value
import proofs.«162679_j41592463294676_1_alg».proof.Proof.Gen.Pre_finite_inputs
import proofs.«162679_j41592463294676_1_alg».proof.Proof.Gen.ReferenceIdeal.Run
import proofs.«162679_j41592463294676_1_alg».proof.Proof.Gen.ReferenceIdeal.Read
import proofs.«162679_j41592463294676_1_alg».proof.Proof.KernelTropical
import proofs.«162679_j41592463294676_1_alg».proof.Proof.RefTropical
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs end with the layer of the (agreeing) arguments in their result arrays. -/
theorem algebraic_KernelIdeal_ReferenceIdeal : algebraic_KernelIdeal_ReferenceIdeal := by
  intro m ρ m' ρ' _ hagree
  refine ⟨fun c => Cert.Tropical.trop (Cert.KernelTropical.argX m c) (Cert.KernelTropical.argK m c), ?_, ?_⟩
  · exact (θ_run Cert.KernelIdeal.defs _ _).mono
      (fun _ h c => ⟨(h c).1.trans (Cert.KernelTropical.kernel_eq_trop m c), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v9_eq, Cert.RefTropical.ref_eq_trop, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
